-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S16x256x1024 : Shape := ⟨3, ![16, 256, 1024]⟩
abbrev S16x256 : Shape := ⟨2, ![16, 256]⟩
abbrev S8192 : Shape := ⟨1, ![8192]⟩
abbrev S1000 : Shape := ⟨1, ![1000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S16x256 : S_.BroadcastsInDim S16x256 (![] : Fin 0 → Fin S16x256.rank)
  reducesTo_S16x256_S_d0_1 : S16x256.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : IVec S1000 32) (main_v13 : IVec S_ 1) (main_v15 : IVec S1000 1) (main_c_5 : IVec S_ 32) : IVec S_ 1 :=
  let main_v16 : IVec S1000 32 := broadcastInDim S1000 ![] bcast_S_S1000 main_c_5
  let main_v17 : IVec S1000 1 := cmpi .slt main_arg4 main_v16
  let main_v18 : IVec S1000 1 := andi main_v15 main_v17
  let main_c_6 : IVec S_ 1 := constantI S_ 1 1#1
  let main_v19 : IVec S_ 1 := (fun x v => Host.reduce IntOp.andi x v reducesTo_S1000_S_d0 h_S_) main_v18 main_c_6
  let main_v20 : IVec S_ 1 := andi main_v13 main_v19
  main_v20

def fn {F : FTy → Type} [FloatOps F] (main_arg0 : FVec F S8192x1024 .f32) (main_arg1 : FVec F S16x256x1024 .f32) (main_arg2 : FVec F S16x256 .f32) (main_arg3 : IVec S8192 32) (main_arg4 : IVec S1000 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_c_4 : IVec S_ 32 := constantI S_ 32 0#32
  let main_v14 : IVec S1000 32 := broadcastInDim S1000 ![] bcast_S_S1000 main_c_4
  let main_v15 : IVec S1000 1 := cmpi .sge main_arg4 main_v14
  let main_c_5 : IVec S_ 32 := constantI S_ 32 16#32
  fn_part1 (F := F) main_arg4 main_v13 main_v15 main_c_5
-- ==== Kernel.lean ====
abbrev S8192x1024 : Shape := ⟨2, ![8192, 1024]⟩
abbrev S16x256x1024 : Shape := ⟨3, ![16, 256, 1024]⟩
abbrev S16x256 : Shape := ⟨2, ![16, 256]⟩
abbrev S8192 : Shape := ⟨1, ![8192]⟩
abbrev S1000 : Shape := ⟨1, ![1000]⟩
abbrev S_ : Shape := ⟨0, ![]⟩
abbrev S8192x1 : Shape := ⟨2, ![8192, 1]⟩
abbrev S16x1024x256 : Shape := ⟨3, ![16, 1024, 256]⟩
abbrev S8192x256 : Shape := ⟨2, ![8192, 256]⟩
abbrev S1024x1024 : Shape := ⟨2, ![1024, 1024]⟩
abbrev S1024x1 : Shape := ⟨2, ![1024, 1]⟩
abbrev S1024x256 : Shape := ⟨2, ![1024, 256]⟩
abbrev S1x1024x256 : Shape := ⟨3, ![1, 1024, 256]⟩
abbrev S1x256 : Shape := ⟨2, ![1, 256]⟩
abbrev S256 : Shape := ⟨1, ![256]⟩

abbrev nBuf : Space → Nat
  | .hbm => 18
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S16x256x1024, .f32⟩
  | .hbm, ⟨2, _⟩ => ⟨S16x256, .f32⟩
  | .hbm, ⟨3, _⟩ => ⟨S8192, .i32⟩
  | .hbm, ⟨4, _⟩ => ⟨S1000, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S8192x1, .i32⟩
  | .hbm, ⟨15, _⟩ => ⟨S16x1024x256, .f32⟩
  | .hbm, ⟨16, _⟩ => ⟨S16x1024x256, .bf16⟩
  | .hbm, ⟨17, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S16x1024x256, .bf16⟩
  | .local _ .vmem, ⟨3, _⟩ => ⟨S16x256, .f32⟩
  | .local _ .vmem, ⟨4, _⟩ => ⟨S1024x1, .i32⟩
  | .local _ .vmem, ⟨5, _⟩ => ⟨S1024x1, .i32⟩
  | .local _ .vmem, ⟨6, _⟩ => ⟨S1024x256, .f32⟩
  | .local _ .vmem, ⟨7, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  transposes_S16x256x1024_S16x1024x256_0_2_1 : S16x256x1024.Transposes [0, 2, 1] S16x1024x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S16x1024x256_S1x1024x256_0_0_0 : ∀ a, (![0, 0, 0] : Fin 3 → Nat) a + S1x1024x256.size a ≤ S16x1024x256.size a
  h_S1x1024x256 : 0 < S1x1024x256.numel
  shapeCasts_S1x1024x256_S1024x256 : S1x1024x256.ShapeCasts S1024x256
  inb_S16x256_S1x256_0_0 : ∀ a, (![0, 0] : Fin 2 → Nat) a + S1x256.size a ≤ S16x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  natLt_1_32 : 1 < 32
  broadcasts_S1024x1_S1024x256 : S1024x1.Broadcasts S1024x256
  inb_S16x1024x256_S1x1024x256_1_0_0 : ∀ a, (![1, 0, 0] : Fin 3 → Nat) a + S1x1024x256.size a ≤ S16x1024x256.size a
  inb_S16x256_S1x256_1_0 : ∀ a, (![1, 0] : Fin 2 → Nat) a + S1x256.size a ≤ S16x256.size a
  inb_S16x1024x256_S1x1024x256_2_0_0 : ∀ a, (![2, 0, 0] : Fin 3 → Nat) a + S1x1024x256.size a ≤ S16x1024x256.size a
  inb_S16x256_S1x256_2_0 : ∀ a, (![2, 0] : Fin 2 → Nat) a + S1x256.size a ≤ S16x256.size a
  inb_S16x1024x256_S1x1024x256_3_0_0 : ∀ a, (![3, 0, 0] : Fin 3 → Nat) a + S1x1024x256.size a ≤ S16x1024x256.size a
  inb_S16x256_S1x256_3_0 : ∀ a, (![3, 0] : Fin 2 → Nat) a + S1x256.size a ≤ S16x256.size a
  inb_S16x1024x256_S1x1024x256_4_0_0 : ∀ a, (![4, 0, 0] : Fin 3 → Nat) a + S1x1024x256.size a ≤ S16x1024x256.size a
  inb_S16x256_S1x256_4_0 : ∀ a, (![4, 0] : Fin 2 → Nat) a + S1x256.size a ≤ S16x256.size a
  inb_S16x1024x256_S1x1024x256_5_0_0 : ∀ a, (![5, 0, 0] : Fin 3 → Nat) a + S1x1024x256.size a ≤ S16x1024x256.size a
  inb_S16x256_S1x256_5_0 : ∀ a, (![5, 0] : Fin 2 → Nat) a + S1x256.size a ≤ S16x256.size a
  inb_S16x1024x256_S1x1024x256_6_0_0 : ∀ a, (![6, 0, 0] : Fin 3 → Nat) a + S1x1024x256.size a ≤ S16x1024x256.size a
  inb_S16x256_S1x256_6_0 : ∀ a, (![6, 0] : Fin 2 → Nat) a + S1x256.size a ≤ S16x256.size a
  inb_S16x1024x256_S1x1024x256_7_0_0 : ∀ a, (![7, 0, 0] : Fin 3 → Nat) a + S1x1024x256.size a ≤ S16x1024x256.size a
  inb_S16x256_S1x256_7_0 : ∀ a, (![7, 0] : Fin 2 → Nat) a + S1x256.size a ≤ S16x256.size a
  inb_S16x1024x256_S1x1024x256_8_0_0 : ∀ a, (![8, 0, 0] : Fin 3 → Nat) a + S1x1024x256.size a ≤ S16x1024x256.size a
  inb_S16x256_S1x256_8_0 : ∀ a, (![8, 0] : Fin 2 → Nat) a + S1x256.size a ≤ S16x256.size a
  inb_S16x1024x256_S1x1024x256_9_0_0 : ∀ a, (![9, 0, 0] : Fin 3 → Nat) a + S1x1024x256.size a ≤ S16x1024x256.size a
  inb_S16x256_S1x256_9_0 : ∀ a, (![9, 0] : Fin 2 → Nat) a + S1x256.size a ≤ S16x256.size a
  inb_S16x1024x256_S1x1024x256_10_0_0 : ∀ a, (![10, 0, 0] : Fin 3 → Nat) a + S1x1024x256.size a ≤ S16x1024x256.size a
  inb_S16x256_S1x256_10_0 : ∀ a, (![10, 0] : Fin 2 → Nat) a + S1x256.size a ≤ S16x256.size a
  inb_S16x1024x256_S1x1024x256_11_0_0 : ∀ a, (![11, 0, 0] : Fin 3 → Nat) a + S1x1024x256.size a ≤ S16x1024x256.size a
  inb_S16x256_S1x256_11_0 : ∀ a, (![11, 0] : Fin 2 → Nat) a + S1x256.size a ≤ S16x256.size a
  inb_S16x1024x256_S1x1024x256_12_0_0 : ∀ a, (![12, 0, 0] : Fin 3 → Nat) a + S1x1024x256.size a ≤ S16x1024x256.size a
  inb_S16x256_S1x256_12_0 : ∀ a, (![12, 0] : Fin 2 → Nat) a + S1x256.size a ≤ S16x256.size a
  inb_S16x1024x256_S1x1024x256_13_0_0 : ∀ a, (![13, 0, 0] : Fin 3 → Nat) a + S1x1024x256.size a ≤ S16x1024x256.size a
  inb_S16x256_S1x256_13_0 : ∀ a, (![13, 0] : Fin 2 → Nat) a + S1x256.size a ≤ S16x256.size a
  inb_S16x1024x256_S1x1024x256_14_0_0 : ∀ a, (![14, 0, 0] : Fin 3 → Nat) a + S1x1024x256.size a ≤ S16x1024x256.size a
  inb_S16x256_S1x256_14_0 : ∀ a, (![14, 0] : Fin 2 → Nat) a + S1x256.size a ≤ S16x256.size a
  inb_S16x1024x256_S1x1024x256_15_0_0 : ∀ a, (![15, 0, 0] : Fin 3 → Nat) a + S1x1024x256.size a ≤ S16x1024x256.size a
  inb_S16x256_S1x256_15_0 : ∀ a, (![15, 0] : Fin 2 → Nat) a + S1x256.size a ≤ S16x256.size a
  inb_S1024x256_S1024x256_0_0 : ∀ a, (![0, 0] : Fin 2 → Nat) a + S1024x256.size a ≤ S1024x256.size a
  h_S1024x256 : 0 < S1024x256.numel
  gather_S1000_S8192x1_S8192_n_0_n_n_0_1_1_wf : GatherDims.WF S1000 S8192x1 S8192 [] [0] [] [0] [] 1 ![1]
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024x256.size a ≤ S16x1024x256.size a
  hwx0_1 : ∀ i : grid0.Coords, EltTy.bits .bf16 = 32 ∨ (Rect.block (s := S16x1024x256) S16x1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)

variable [Facts₀]

def gather_S1000_S8192x1_S8192_n_0_n_n_0_1_1 : GatherDims S1000 S8192x1 S8192 where
  offsetDims := []
  collapsedSliceDims := [0]
  operandBatchingDims := []
  startIndicesBatchingDims := []
  startIndexMap := [0]
  indexVectorDim := 1
  sliceSizes := ![1]
  wf := gather_S1000_S8192x1_S8192_n_0_n_n_0_1_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S16x256x1024 : Shape := ⟨3, ![16, 256, 1024]⟩
abbrev S16x256 : Shape := ⟨2, ![16, 256]⟩
abbrev S8192 : Shape := ⟨1, ![8192]⟩
abbrev S1000 : Shape := ⟨1, ![1000]⟩
abbrev S_ : Shape := ⟨0, ![]⟩
abbrev S8192x1 : Shape := ⟨2, ![8192, 1]⟩
abbrev S8192x16x256 : Shape := ⟨3, ![8192, 16, 256]⟩
abbrev S1x16x256 : Shape := ⟨3, ![1, 16, 256]⟩
abbrev S8192x1x1 : Shape := ⟨3, ![8192, 1, 1]⟩
abbrev S1 : Shape := ⟨1, ![1]⟩
abbrev S1x1x1 : Shape := ⟨3, ![1, 1, 1]⟩
abbrev S8192x1x256 : Shape := ⟨3, ![8192, 1, 256]⟩
abbrev S8192x256 : Shape := ⟨2, ![8192, 256]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x256x1024, .f32⟩
  | .hbm, ⟨2, _⟩ => ⟨S16x256, .f32⟩
  | .hbm, ⟨3, _⟩ => ⟨S8192, .i32⟩
  | .hbm, ⟨4, _⟩ => ⟨S1000, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S8192x16x256, .f32⟩
  | .hbm, ⟨15, _⟩ => ⟨S1x16x256, .f32⟩
  | .hbm, ⟨16, _⟩ => ⟨S8192x16x256, .f32⟩
  | .hbm, ⟨17, _⟩ => ⟨S8192x16x256, .f32⟩
  | .hbm, ⟨18, _⟩ => ⟨S8192x1x1, .i32⟩
  | .hbm, ⟨19, _⟩ => ⟨S_, .i32⟩
  | .hbm, ⟨20, _⟩ => ⟨S8192x1x1, .i32⟩
  | .hbm, ⟨21, _⟩ => ⟨S8192x1x1, .i1⟩
  | .hbm, ⟨22, _⟩ => ⟨S_, .i32⟩
  | .hbm, ⟨23, _⟩ => ⟨S8192x1x1, .i32⟩
  | .hbm, ⟨24, _⟩ => ⟨S8192x1x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1x256, .f32⟩
  | .hbm, ⟨37, _⟩ => ⟨S8192x1x256, .i1⟩
  | .hbm, ⟨38, _⟩ => ⟨S_, .f32⟩
  | .hbm, ⟨39, _⟩ => ⟨S8192x1x256, .f32⟩
  | .hbm, ⟨40, _⟩ => ⟨S8192x1x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S16x256_S1x16x256_1_2 : S16x256.BroadcastsInDim S1x16x256 (![1, 2] : Fin 2 → Fin S1x16x256.rank)
  bcast_S1x16x256_S8192x16x256_0_1_2 : S1x16x256.BroadcastsInDim S8192x16x256 (![0, 1, 2] : Fin 3 → Fin S8192x16x256.rank)
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S8192x1_S8192x1x256_0_1 : S8192x1.BroadcastsInDim S8192x1x256 (![0, 1] : Fin 2 → Fin S8192x1x256.rank)
  bcast_S_S8192x1x256 : S_.BroadcastsInDim S8192x1x256 (![] : Fin 0 → Fin S8192x1x256.rank)
  shapeCasts_S8192x1x256_S8192x256 : S8192x1x256.ShapeCasts S8192x256
  bcast_S_S8192x256 : S_.BroadcastsInDim S8192x256 (![] : Fin 0 → Fin S8192x256.rank)
  gather_S1000_S8192x1_S8192_n_0_n_n_0_1_1_wf : GatherDims.WF S1000 S8192x1 S8192 [] [0] [] [0] [] 1 ![1]
  dot_S8192x1024_S16x256x1024_S8192x16x256_1_2_0_01_n_n_wf : DotDims.WF S8192x1024 S16x256x1024 S8192x16x256 [1] [2] [0] [0, 1] [] []
  gather_S8192x16x256_S8192x1x1_S8192x1x256_2_1_0_0_1_2_11256_wf : GatherDims.WF S8192x16x256 S8192x1x1 S8192x1x256 [2] [1] [0] [1] [0] 2 ![1, 1, 256]

variable [Facts₀]

def gather_S1000_S8192x1_S8192_n_0_n_n_0_1_1 : GatherDims S1000 S8192x1 S8192 where
  offsetDims := []
  collapsedSliceDims := [0]
  operandBatchingDims := []
  startIndicesBatchingDims := []
  startIndexMap := [0]
  indexVectorDim := 1
  sliceSizes := ![1]
  wf := gather_S1000_S8192x1_S8192_n_0_n_n_0_1_1_wf
def dot_S8192x1024_S16x256x1024_S8192x16x256_1_2_0_01_n_n : DotDims S8192x1024 S16x256x1024 S8192x16x256 where
  lhsContracting := [1]
  rhsContracting := [2]
  lhsNonContracting := [0]
  rhsNonContracting := [0, 1]
  lhsBatch := []
  rhsBatch := []
  wf := dot_S8192x1024_S16x256x1024_S8192x16x256_1_2_0_01_n_n_wf
def gather_S8192x16x256_S8192x1x1_S8192x1x256_2_1_0_0_1_2_11256 : GatherDims S8192x16x256 S8192x1x1 S8192x1x256 where
  offsetDims := [2]
  collapsedSliceDims := [1]
  operandBatchingDims := [0]
  startIndicesBatchingDims := [0]
  startIndexMap := [1]
  indexVectorDim := 2
  sliceSizes := ![1, 1, 256]
  wf := gather_S8192x16x256_S8192x1x1_S8192x1x256_2_1_0_0_1_2_11256_wf

class Facts : Prop extends Facts₀ where

variable [Facts]
-- ==== Proof.Spec.lean ====
/-
  The routed expert layer, as ONE function of the argument arrays.

  Row r of the batch is sent to expert e(r) = c[num[r]] and the result is
      out[r, o] = σ( Σ_k x[r, k] · W[e(r), o, k] + b[e(r), o] ),   σ(z) = 1 / (1 + e^(-z)).
  The kernel reaches the selected logit as a sum over ALL sixteen experts of logit_e · [e(r) = e], the bracket a 0/1
  weight; the reference computes every logit and takes the one at e(r). On the extended reals a · 0 = 0, a · 1 = a and
  0 + a = a hold for every a, so the weighted sum collapses to its one surviving term whatever the other logits are
  (`pick16`): no finiteness is used.
-/
import Idealize.ShloMosaic.PureOps.Ideal
import Idealize.ShloMosaic.PureOps.Ideal.Laws
import Idealize.ShloMosaic.Lib.ValueIdx

noncomputable section

namespace Cert.Routed

open Idealize.ShloMosaic Idealize.ShloMosaic.ValueIdx

/-- An expert id read as an index into the sixteen experts (ids in range are read as themselves: `sel_ofNat`). -/
def sel (v : BitVec 32) : Fin 16 := ⟨v.toNat % 16, Nat.mod_lt _ (by decide)⟩

theorem sel_ofNat (e : Fin 16) : sel (BitVec.ofNat 32 e.val) = e := by
  apply Fin.ext
  show (BitVec.ofNat 32 e.val).toNat % 16 = e.val
  rw [BitVec.toNat_ofNat]
  have := e.isLt
  omega

/-- The 0/1 weight of expert `e` for a row whose id is `v`. -/
def ind (v e : BitVec 32) : EReal := if v = e then 1 else 0

/-- The kernel's weight — the comparison's bit widened to a word and converted to a float — is that 0/1 weight. -/
theorem weight_eq (v e : BitVec 32) :
    FloatOps.sitofp (F := Ideal) .f32 ((IntOp.cmpi .eq v e).setWidth 32) = ind v e := by
  unfold ind
  show (((((IntOp.cmpi .eq v e).setWidth 32).toInt : ℝ)) : EReal) = _
  by_cases h : v = e
  · subst h
    rw [if_pos rfl]
    have : IntOp.cmpi .eq v v = 1#1 := by simp [IntOp.cmpi]
    rw [this]
    norm_num
  · rw [if_neg h]
    have hb : (v == e) = false := beq_eq_false_iff_ne.mpr h
    have : IntOp.cmpi .eq v e = 0#1 := by simp [IntOp.cmpi, hb]
    rw [this]
    norm_num

/-- Expert `e`'s logit for row `r`, output column `o`: the row of `x` against row `o` of `W[e]`, plus the bias. -/
def logit (x : (⟨2, ![8192, 1024]⟩ : Shape).Idx → EReal) (W : (⟨3, ![16, 256, 1024]⟩ : Shape).Idx → EReal)
    (b : (⟨2, ![16, 256]⟩ : Shape).Idx → EReal) (e : Fin 16) (r : Fin 8192) (o : Fin 256) : EReal :=
  (∑ k : Fin 1024, x (ix2 r k) * W (ix3 e o k)) + b (ix2 e o)

/-- The layer: each row through its own expert, then the logistic function. -/
def routed (x : (⟨2, ![8192, 1024]⟩ : Shape).Idx → EReal) (W : (⟨3, ![16, 256, 1024]⟩ : Shape).Idx → EReal)
    (b : (⟨2, ![16, 256]⟩ : Shape).Idx → EReal) (E : (⟨1, ![8192]⟩ : Shape).Idx → BitVec 32) :
    (⟨2, ![8192, 256]⟩ : Shape).Idx → EReal :=
  fun i => Ideal.logistic (logit x W b (sel (E (ix1 (i 0)))) (i 0) (i 1))

/-- The sum over all sixteen experts of logit · weight, accumulated from zero in the kernel's order, is the logit of
    the one expert the id names. -/
theorem pick16 (L : Fin 16 → EReal) (v : BitVec 32) (e0 : Fin 16) (hv : v = BitVec.ofNat 32 e0.val) :
    0 + L 0 * ind v 0#32 + L 1 * ind v 1#32 + L 2 * ind v 2#32 + L 3 * ind v 3#32 + L 4 * ind v 4#32
      + L 5 * ind v 5#32 + L 6 * ind v 6#32 + L 7 * ind v 7#32 + L 8 * ind v 8#32 + L 9 * ind v 9#32
      + L 10 * ind v 10#32 + L 11 * ind v 11#32 + L 12 * ind v 12#32 + L 13 * ind v 13#32 + L 14 * ind v 14#32
      + L 15 * ind v 15#32 = L e0 := by
  subst hv
  fin_cases e0 <;> simp [ind]

/-- What the reference's `take_along_axis` does with an id that names an expert: a negative id would be counted from the end,
    but this one is not negative; it passes the in-range test 0 ≤ id ≤ 15; and the gather's clamp into [0, 15] leaves it. -/
theorem wrap_inrange (e0 : Fin 16) :
    Scalar.select (IntOp.cmpi .slt (BitVec.ofNat 32 e0.val) 0#32) (IntOp.addi (BitVec.ofNat 32 e0.val) 16#32) (BitVec.ofNat 32 e0.val)
      = BitVec.ofNat 32 e0.val := by
  fin_cases e0 <;> decide
theorem test_inrange (e0 : Fin 16) :
    IntOp.andi (IntOp.cmpi .sge (BitVec.ofNat 32 e0.val) 0#32) (IntOp.cmpi .sle (BitVec.ofNat 32 e0.val) 15#32) = 1#1 := by
  fin_cases e0 <;> decide
theorem clamp_inrange (e0 : Fin 16) : min (BitVec.ofNat 32 e0.val).toInt.toNat (16 - 1) = e0.val := by
  fin_cases e0 <;> decide

/-- The float word of one. -/
theorem one_f32 : Ideal.ofBits .f32 0x3F800000#32 = 1 := by
  simp [Ideal.ofBits, Ideal.ieee, -EReal.coe_mul]; norm_num

end Cert.Routed

end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.KernelBody.lean ====
/-
  The kernel body's arithmetic, expert by expert.

  For each expert e the body forms  (x_blk · Wt[e] + b[e]) ⊙ [id = e]  — a matrix product of the block's 1024 rows with the
  expert's [1024, 256] slab, the bias row spread over the rows, the row's 0/1 weight spread over the columns — and adds it to
  an accumulator that starts at zero; the stored block is the logistic function of the total. Read at entry (p, q), with the
  row's id equal to e₀, the total is expert e₀'s logit (Spec's `pick16`), whatever the other fifteen logits are.
-/
import proofs.«427025_j19842748907578_1_alg».proof.Proof.Gen.KernelIdeal.Frame
import proofs.«427025_j19842748907578_1_alg».proof.Proof.Spec
import proofs.«427025_j19842748907578_1_alg».proof.Proof.LibMaskedSelect
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Idealize.ShloMosaic.MaskedSelect Cert.Routed

variable {F : FTy → Type} [FloatOps F]

/-- One expert's term: (rows · slab + bias row) times the rows' 0/1 weight for the expert id `e`. -/
def contrib (xb : FVec F S1024x1024 .bf16) (ex : IVec S1024x1 32) (wl : Vec F S1x1024x256 .bf16) (bl : Vec F S1x256 .f32)
    (e : BitVec 32) : FVec F S1024x256 .f32 :=
  mulf
    (addf
      (matmul dot_S1024x1024_S1024x256_S1024x256_1_0_0_1_n_n none xb (shapeCast S1024x256 wl shapeCasts_S1x1024x256_S1024x256) (constant S1024x256 .f32 0x00000000#32))
      (broadcastTo S1024x256 (shapeCast S1x256 (shapeCast S256 bl shapeCasts_S1x256_S256) shapeCasts_S256_S1x256) broadcasts_S1x256_S1024x256))
    (broadcastTo S1024x256 (sitofp .f32 (extui 32 (cmpi .eq ex (broadcast S1024x1 e)) natLt_1_32)) broadcasts_S1024x1_S1024x256)

/-- The stored block: the logistic function of the sixteen terms accumulated from zero, over the block's loads. -/
def block (x0 : Vec F S1024x1024 .f32) (x1 : Vec F S16x1024x256 .bf16) (x2 : Vec F S16x256 .f32) (x3 : Vec F S1024x1 .i32) :
    FVec F S1024x256 .f32 :=
  let xb : FVec F S1024x1024 .bf16 := truncf .bf16 (View.ld x0 r0_0) bitsLt_bf16_f32
  let ex : IVec S1024x1 32 := shapeCast S1024x1 (View.ld x3 r0_1) shapeCasts_S1024x1_S1024x1
  logistic
    (addf (addf (addf (addf (addf (addf (addf (addf (addf (addf (addf (addf (addf (addf (addf (addf (broadcast S1024x256 (Scalar.ofBits (F := F) .f32 0x00000000#32))
      (contrib xb ex (View.ld x1 r0_2) (View.ld x2 r0_3) 0#32))
      (contrib xb ex (View.ld x1 r0_4) (View.ld x2 r0_5) 1#32))
      (contrib xb ex (View.ld x1 r0_6) (View.ld x2 r0_7) 2#32))
      (contrib xb ex (View.ld x1 r0_8) (View.ld x2 r0_9) 3#32))
      (contrib xb ex (View.ld x1 r0_10) (View.ld x2 r0_11) 4#32))
      (contrib xb ex (View.ld x1 r0_12) (View.ld x2 r0_13) 5#32))
      (contrib xb ex (View.ld x1 r0_14) (View.ld x2 r0_15) 6#32))
      (contrib xb ex (View.ld x1 r0_16) (View.ld x2 r0_17) 7#32))
      (contrib xb ex (View.ld x1 r0_18) (View.ld x2 r0_19) 8#32))
      (contrib xb ex (View.ld x1 r0_20) (View.ld x2 r0_21) 9#32))
      (contrib xb ex (View.ld x1 r0_22) (View.ld x2 r0_23) 10#32))
      (contrib xb ex (View.ld x1 r0_24) (View.ld x2 r0_25) 11#32))
      (contrib xb ex (View.ld x1 r0_26) (View.ld x2 r0_27) 12#32))
      (contrib xb ex (View.ld x1 r0_28) (View.ld x2 r0_29) 13#32))
      (contrib xb ex (View.ld x1 r0_30) (View.ld x2 r0_31) 14#32))
      (contrib xb ex (View.ld x1 r0_32) (View.ld x2 r0_33) 15#32))

/-- What the body leaves in the output buffer is that block. -/
theorem out_eq (x0 : Vec F S1024x1024 .f32) (x1 : Vec F S16x1024x256 .bf16) (x2 : Vec F S16x256 .f32) (x3 : Vec F S1024x1 .i32) :
    out0_4 x0 x1 x2 x3 = View.canon [⟨r0_34, block x0 x1 x2 x3⟩] := rfl

/-! ## Read at an index, on the extended reals -/

/-- The product's operand indices, axis by axis: the left operand at (row, k), the right at (k, column). -/
theorem lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block's matrix product into a zero accumulator, at (p, q): the sum over k of row p of the left operand against
    column q of the right. -/
theorem mm_apply (xb : FVec Ideal S1024x1024 .bf16) (w : FVec Ideal S1024x256 .bf16) (p : Fin 1024) (q : Fin 256) :
    matmul dot_S1024x1024_S1024x256_S1024x256_1_0_0_1_n_n none xb w (constant (F := Ideal) S1024x256 .f32 0x00000000#32) (ix2 p q)
      = ∑ k : Fin 1024, xb (ix2 p k) * w (ix2 k q) := by
  show FloatOps.matmul dot_S1024x1024_S1024x256_S1024x256_1_0_0_1_n_n none xb w (constant (F := Ideal) S1024x256 .f32 0x00000000#32) (ix2 p q) = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- Expert k's slab of the weights, loaded as a [1, 1024, 256] piece, reads the array at (k, ·, ·). -/
theorem ld_slab3 {Val : EltTy → Type} {e' : EltTy} (X : S16x1024x256.Idx → Val e') (k : ℕ)
    (inb : ∀ a, (![k, 0, 0] : Fin 3 → ℕ) a + S1x1024x256.size a ≤ S16x1024x256.size a) (i : Fin 1024) (j : Fin 256) :
    View.ld X (Rect.unit (s := S16x1024x256) ![k, 0, 0] S1x1024x256.size inb) (ix3 (0 : Fin 1) i j)
      = X (ix3 (⟨k, by have := inb 0; exact this⟩ : Fin 16) i j) := by
  show X _ = X _
  refine congrArg X (funext fun ax => Fin.ext ?_)
  match ax with
  | ⟨0, _⟩ => show k + 1 * 0 = k; omega
  | ⟨1, _⟩ => show 0 + 1 * i.val = i.val; omega
  | ⟨2, _⟩ => show 0 + 1 * j.val = j.val; omega

/-- Expert k's bias row, loaded as a [1, 256] piece, reads the array at (k, ·). -/
theorem ld_slab2 {Val : EltTy → Type} {e' : EltTy} (X : S16x256.Idx → Val e') (k : ℕ)
    (inb : ∀ a, (![k, 0] : Fin 2 → ℕ) a + S1x256.size a ≤ S16x256.size a) (j : Fin 256) :
    View.ld X (Rect.unit (s := S16x256) ![k, 0] S1x256.size inb) (ix2 (0 : Fin 1) j)
      = X (ix2 (⟨k, by have := inb 0; exact this⟩ : Fin 16) j) := by
  show X _ = X _
  refine congrArg X (funext fun ax => Fin.ext ?_)
  match ax with
  | ⟨0, _⟩ => show k + 1 * 0 = k; omega
  | ⟨1, _⟩ => show 0 + 1 * j.val = j.val; omega

/-- One expert's term at (p, q): the row's product with the slab's column q plus the bias, times the row's 0/1 weight. -/
theorem contrib_apply (xb : FVec Ideal S1024x1024 .bf16) (ex : IVec S1024x1 32) (wl : Vec Ideal S1x1024x256 .bf16)
    (bl : Vec Ideal S1x256 .f32) (e : BitVec 32) (p : Fin 1024) (q : Fin 256) :
    contrib xb ex wl bl e (ix2 p q)
      = ((∑ k : Fin 1024, xb (ix2 p k) * wl (ix3 (0 : Fin 1) k q)) + bl (ix2 (0 : Fin 1) q)) * ind (ex (ix2 p (0 : Fin 1))) e := by
  unfold contrib
  rw [mulf_apply, addf_apply, mm_apply, broadcastTo_1b_ab_apply, shapeCast_shapeCast, broadcastTo_a1_ab_apply]
  simp only [shapeCast_1ab_ab_apply]
  exact congrArg (_ * ·) (weight_eq _ _)

/-- The stored block at (p, q), for a row whose id is e₀: the logistic function of expert e₀'s logit, read off the block's
    loads — the rows of `x0`, slab e₀ of `x1`, row e₀ of `x2`. -/
theorem block_apply (x0 : Vec Ideal S1024x1024 .f32) (x1 : Vec Ideal S16x1024x256 .bf16) (x2 : Vec Ideal S16x256 .f32)
    (x3 : Vec Ideal S1024x1 .i32) (p : Fin 1024) (q : Fin 256) (e0 : Fin 16)
    (hv : x3 (ix2 p (0 : Fin 1)) = BitVec.ofNat 32 e0.val) :
    block x0 x1 x2 x3 (ix2 p q) = Ideal.logistic ((∑ k : Fin 1024, x0 (ix2 p k) * x1 (ix3 e0 k q)) + x2 (ix2 e0 q)) := by
  have hz : (![0, 0] : Fin 2 → ℕ) = fun _ => 0 := by funext a; fin_cases a <;> rfl
  have l0 : View.ld x0 r0_0 = x0 := View.ld_unit_zero (S := S1024x1024) hz _ x0
  have l3 : View.ld x3 r0_1 = x3 := View.ld_unit_zero (S := S1024x1) hz _ x3
  have hzero : Scalar.ofBits (F := Ideal) .f32 0x00000000#32 = (0 : EReal) := Ideal.ofBits_zero_f32
  have ex_eq : (shapeCast S1024x1 (View.ld x3 r0_1) shapeCasts_S1024x1_S1024x1 : IVec S1024x1 32) = x3 := by
    rw [l3]; exact shapeCast_self _ _
  unfold block
  try dsimp only
  rw [l0, ex_eq]
  show Ideal.logistic _ = _
  simp only [addf_apply, contrib_apply, broadcast_apply, hzero, truncf_apply]
  -- expert k's loads are slab k of the weights and row k of the biases
  have w0 : ∀ j : Fin 1024, View.ld x1 r0_2 (ix3 (0 : Fin 1) j q) = x1 (ix3 (0 : Fin 16) j q) := fun j => ld_slab3 x1 0 _ j q
  have b0 : View.ld x2 r0_3 (ix2 (0 : Fin 1) q) = x2 (ix2 (0 : Fin 16) q) := ld_slab2 x2 0 _ q
  have w1 : ∀ j : Fin 1024, View.ld x1 r0_4 (ix3 (0 : Fin 1) j q) = x1 (ix3 (1 : Fin 16) j q) := fun j => ld_slab3 x1 1 _ j q
  have b1 : View.ld x2 r0_5 (ix2 (0 : Fin 1) q) = x2 (ix2 (1 : Fin 16) q) := ld_slab2 x2 1 _ q
  have w2 : ∀ j : Fin 1024, View.ld x1 r0_6 (ix3 (0 : Fin 1) j q) = x1 (ix3 (2 : Fin 16) j q) := fun j => ld_slab3 x1 2 _ j q
  have b2 : View.ld x2 r0_7 (ix2 (0 : Fin 1) q) = x2 (ix2 (2 : Fin 16) q) := ld_slab2 x2 2 _ q
  have w3 : ∀ j : Fin 1024, View.ld x1 r0_8 (ix3 (0 : Fin 1) j q) = x1 (ix3 (3 : Fin 16) j q) := fun j => ld_slab3 x1 3 _ j q
  have b3 : View.ld x2 r0_9 (ix2 (0 : Fin 1) q) = x2 (ix2 (3 : Fin 16) q) := ld_slab2 x2 3 _ q
  have w4 : ∀ j : Fin 1024, View.ld x1 r0_10 (ix3 (0 : Fin 1) j q) = x1 (ix3 (4 : Fin 16) j q) := fun j => ld_slab3 x1 4 _ j q
  have b4 : View.ld x2 r0_11 (ix2 (0 : Fin 1) q) = x2 (ix2 (4 : Fin 16) q) := ld_slab2 x2 4 _ q
  have w5 : ∀ j : Fin 1024, View.ld x1 r0_12 (ix3 (0 : Fin 1) j q) = x1 (ix3 (5 : Fin 16) j q) := fun j => ld_slab3 x1 5 _ j q
  have b5 : View.ld x2 r0_13 (ix2 (0 : Fin 1) q) = x2 (ix2 (5 : Fin 16) q) := ld_slab2 x2 5 _ q
  have w6 : ∀ j : Fin 1024, View.ld x1 r0_14 (ix3 (0 : Fin 1) j q) = x1 (ix3 (6 : Fin 16) j q) := fun j => ld_slab3 x1 6 _ j q
  have b6 : View.ld x2 r0_15 (ix2 (0 : Fin 1) q) = x2 (ix2 (6 : Fin 16) q) := ld_slab2 x2 6 _ q
  have w7 : ∀ j : Fin 1024, View.ld x1 r0_16 (ix3 (0 : Fin 1) j q) = x1 (ix3 (7 : Fin 16) j q) := fun j => ld_slab3 x1 7 _ j q
  have b7 : View.ld x2 r0_17 (ix2 (0 : Fin 1) q) = x2 (ix2 (7 : Fin 16) q) := ld_slab2 x2 7 _ q
  have w8 : ∀ j : Fin 1024, View.ld x1 r0_18 (ix3 (0 : Fin 1) j q) = x1 (ix3 (8 : Fin 16) j q) := fun j => ld_slab3 x1 8 _ j q
  have b8 : View.ld x2 r0_19 (ix2 (0 : Fin 1) q) = x2 (ix2 (8 : Fin 16) q) := ld_slab2 x2 8 _ q
  have w9 : ∀ j : Fin 1024, View.ld x1 r0_20 (ix3 (0 : Fin 1) j q) = x1 (ix3 (9 : Fin 16) j q) := fun j => ld_slab3 x1 9 _ j q
  have b9 : View.ld x2 r0_21 (ix2 (0 : Fin 1) q) = x2 (ix2 (9 : Fin 16) q) := ld_slab2 x2 9 _ q
  have w10 : ∀ j : Fin 1024, View.ld x1 r0_22 (ix3 (0 : Fin 1) j q) = x1 (ix3 (10 : Fin 16) j q) := fun j => ld_slab3 x1 10 _ j q
  have b10 : View.ld x2 r0_23 (ix2 (0 : Fin 1) q) = x2 (ix2 (10 : Fin 16) q) := ld_slab2 x2 10 _ q
  have w11 : ∀ j : Fin 1024, View.ld x1 r0_24 (ix3 (0 : Fin 1) j q) = x1 (ix3 (11 : Fin 16) j q) := fun j => ld_slab3 x1 11 _ j q
  have b11 : View.ld x2 r0_25 (ix2 (0 : Fin 1) q) = x2 (ix2 (11 : Fin 16) q) := ld_slab2 x2 11 _ q
  have w12 : ∀ j : Fin 1024, View.ld x1 r0_26 (ix3 (0 : Fin 1) j q) = x1 (ix3 (12 : Fin 16) j q) := fun j => ld_slab3 x1 12 _ j q
  have b12 : View.ld x2 r0_27 (ix2 (0 : Fin 1) q) = x2 (ix2 (12 : Fin 16) q) := ld_slab2 x2 12 _ q
  have w13 : ∀ j : Fin 1024, View.ld x1 r0_28 (ix3 (0 : Fin 1) j q) = x1 (ix3 (13 : Fin 16) j q) := fun j => ld_slab3 x1 13 _ j q
  have b13 : View.ld x2 r0_29 (ix2 (0 : Fin 1) q) = x2 (ix2 (13 : Fin 16) q) := ld_slab2 x2 13 _ q
  have w14 : ∀ j : Fin 1024, View.ld x1 r0_30 (ix3 (0 : Fin 1) j q) = x1 (ix3 (14 : Fin 16) j q) := fun j => ld_slab3 x1 14 _ j q
  have b14 : View.ld x2 r0_31 (ix2 (0 : Fin 1) q) = x2 (ix2 (14 : Fin 16) q) := ld_slab2 x2 14 _ q
  have w15 : ∀ j : Fin 1024, View.ld x1 r0_32 (ix3 (0 : Fin 1) j q) = x1 (ix3 (15 : Fin 16) j q) := fun j => ld_slab3 x1 15 _ j q
  have b15 : View.ld x2 r0_33 (ix2 (0 : Fin 1) q) = x2 (ix2 (15 : Fin 16) q) := ld_slab2 x2 15 _ q
  simp only [w0, b0, w1, b1, w2, b2, w3, b3, w4, b4, w5, b5, w6, b6, w7, b7, w8, b8, w9, b9, w10, b10, w11, b11, w12, b12, w13, b13, w14, b14, w15, b15]
  -- the logit as a function of the expert: every one of the sixteen terms is `L e * weight`
  let L : Fin 16 → EReal := fun e => (∑ k : Fin 1024, x0 (ix2 p k) * x1 (ix3 e k q)) + x2 (ix2 e q)
  have hL : ∀ e : Fin 16, (∑ k : Fin 1024, x0 (ix2 p k) * x1 (ix3 e k q)) + x2 (ix2 e q) = L e := fun _ => rfl
  simp only [hL]
  clear hL
  clear_value L
  exact congrArg Ideal.logistic (pick16 L _ e0 hv)

end Cert.KernelIdeal.Body

end
-- ==== Proof.KernelValue.lean ====
/-
  The kernel's result array, as one function of the argument arrays.

  Grid point t handles rows 1024·t … 1024·t + 1023: it is handed those rows of x and of the expert ids, all sixteen weight
  slabs (transposed once on the host, so slab e at (k, q) is W[e, q, k]) and all sixteen bias rows, and writes back rows
  1024·t … of the output. The eight blocks tile the [8192, 256] result, and block t holds the routed layer's rows, so the
  array ends holding the routed layer — provided every row's id names one of the sixteen experts, which is what makes the
  0/1 weights select exactly one term.
-/
import proofs.«427025_j19842748907578_1_alg».proof.Proof.Gen.KernelIdeal.Value
import proofs.«427025_j19842748907578_1_alg».proof.Proof.KernelBody
import Idealize.ShloMosaic.Lib.StableHlo.Run

set_option maxRecDepth 16384

noncomputable section

namespace Cert.KernelIdeal.RoutedValue

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Routed
open Idealize.ShloMosaic.Pipeline (Dat)

variable (m : (ℓ : Loc nD τ sig) → Buf (Elt Ideal) ℓ) (ρ : Dev nD → PrngReg)

/-- The expert ids as @main computes them before the launch: `c[num]`, a negative `num` counted from the end, the
    position clamped into the table. -/
def ids (num : IVec S8192 32) (cmap : IVec S1000 32) : IVec S8192 32 :=
  Host.gather gather_S1000_S8192x1_S8192_n_0_n_n_0_1_1 cmap
    (broadcastInDim S8192x1 ![0] bcast_S8192_S8192x1_0
      (select (cmpi .slt num (broadcastInDim S8192 ![] bcast_S_S8192 (constantI S_ 32 0#32)))
        (addi num (broadcastInDim S8192 ![] bcast_S_S8192 (constantI S_ 32 1000#32))) num))

/-- Every id is an entry of the table. -/
theorem ids_mem (num : IVec S8192 32) (cmap : IVec S1000 32) (r : S8192.Idx) : ∃ j : S1000.Idx, ids num cmap r = cmap j :=
  ⟨_, rfl⟩

/-- The ids' column as the region finds it: the gather's result reshaped to [8192, 1]. -/
theorem V_ids (c : Dev nD) :
    (V m c main_v7 : S8192x1.Idx → BitVec 32) = shapeCast S8192x1 (ids (m ((c : Thread nD τ).loc main_arg3)) (m ((c : Thread nD τ).loc main_arg4))) shapeCasts_S8192_S8192x1 := by
  dsimp only [V, hostOps0]
  after_results
  rfl

/-- The weights as the region finds them: transposed to [16, 1024, 256] (the change of float format is the identity). -/
theorem V_wt (c : Dev nD) :
    (V m c main_v9 : S16x1024x256.Idx → EReal)
      = (truncf (F := Ideal) .bf16 (transpose S16x1024x256 [0, 2, 1] ((m ((c : Thread nD τ).loc main_arg1)) : S16x256x1024.Idx → EReal)
          transposes_S16x256x1024_S16x1024x256_0_2_1) bitsLt_bf16_f32 : S16x1024x256.Idx → EReal) := by
  dsimp only [V, hostOps0]
  after_results

theorem hz : (![0, 0] : Fin 2 → Nat) = fun _ => 0 := funext fun a => by fin_cases a <;> rfl

/-- The printed index maps over the grid: the row windows (x, ids, result) are at block t, the weights and biases at block 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 1024·t + p of the array. -/
def row (t : Fin cfg0.N) (p : Fin 1024) : Fin 8192 :=
  ⟨t.val * 1024 + p.val, by have h8 : cfg0.N = 8 := N_0; have := t.isLt; have := p.isLt; omega⟩

/-- The rows of x a point is handed. -/
theorem blk_x (c : Dev nD) (t : Fin cfg0.N) (p : Fin 1024) (k : Fin 1024) :
    iblk m c 0 t (ix2 p k) = (m ((c : Thread nD τ).loc main_arg0)) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The weights a point is handed: slab e at (k, q) is W[e, q, k]. -/
theorem blk_w (c : Dev nD) (t : Fin cfg0.N) (e : Fin 16) (k : Fin 1024) (q : Fin 256) :
    iblk m c 1 t (ix3 e k q) = (m ((c : Thread nD τ).loc main_arg1)) (ix3 e q k) := by
  obtain ⟨-, -, e2, e3, e4, -⟩ := idx_facts t
  show V m c main_v9 (((cfg0.win 1).blk t).view.emb (ix3 e k q)) = _
  have hi : ((cfg0.win 1).blk t).view.emb (ix3 e k q) = ix3 e k q := funext fun a => Fin.ext (by
    match a with
    | ⟨0, _⟩ => show win0_1.index t (0 : Fin 3) * 16 + 1 * e.val = e.val; omega
    | ⟨1, _⟩ => show win0_1.index t (1 : Fin 3) * 1024 + 1 * k.val = k.val; omega
    | ⟨2, _⟩ => show win0_1.index t (2 : Fin 3) * 256 + 1 * q.val = q.val; omega)
  rw [hi, V_wt, truncf_apply]
  exact transpose_ix3_021_apply _ _ e k q

/-- The bias rows a point is handed. -/
theorem blk_b (c : Dev nD) (t : Fin cfg0.N) (e : Fin 16) (q : Fin 256) :
    iblk m c 2 t (ix2 e q) = (m ((c : Thread nD τ).loc main_arg2)) (ix2 e q) := by
  obtain ⟨-, -, -, -, -, e5, e6, -⟩ := idx_facts t
  show V m c main_arg2 (((cfg0.win 2).blk t).view.emb (ix2 e q)) = _
  rw [V_main_arg2]
  refine congrArg _ (funext fun a => Fin.ext ?_)
  match a with
  | ⟨0, _⟩ => show win0_2.index t (0 : Fin 2) * 16 + 1 * e.val = e.val; omega
  | ⟨1, _⟩ => show win0_2.index t (1 : Fin 2) * 256 + 1 * q.val = q.val; omega

/-- The ids a point is handed. -/
theorem blk_ids (c : Dev nD) (t : Fin cfg0.N) (p : Fin 1024) :
    iblk m c 3 t (ix2 p (0 : Fin 1)) = ids (m ((c : Thread nD τ).loc main_arg3)) (m ((c : Thread nD τ).loc main_arg4)) (ix1 (row t p)) := by
  obtain ⟨-, -, -, -, -, -, -, e7, e8, -⟩ := idx_facts t
  show V m c main_v7 (((cfg0.win 3).blk t).view.emb (ix2 p (0 : Fin 1))) = _
  have hi : ((cfg0.win 3).blk t).view.emb (ix2 p (0 : Fin 1)) = ix2 (row t p) (0 : Fin 1) := funext fun a => Fin.ext (by
    match a with
    | ⟨0, _⟩ => show win0_3.index t (0 : Fin 2) * 1024 + 1 * p.val = t.val * 1024 + p.val; omega
    | ⟨1, _⟩ => show win0_3.index t (1 : Fin 2) * 1 + 1 * 0 = 0; omega)
  rw [hi, V_ids]
  exact shapeCast_apply _ _ _ _ (by
    rw [Shape.rowMajor_val_one, Shape.rowMajor_val_two]
    show t.val * 1024 + p.val = (t.val * 1024 + p.val) * 1 + 0
    omega)

/-! ## What a point writes back, and the array after the run -/

/-- Every row's id names one of the sixteen experts. -/
def IdsInRange (c : Dev nD) : Prop :=
  ∀ r : Fin 8192, ∃ e0 : Fin 16, ids (m ((c : Thread nD τ).loc main_arg3)) (m ((c : Thread nD τ).loc main_arg4)) (ix1 r) = BitVec.ofNat 32 e0.val

/-- WHAT POINT `t` WRITES BACK is block `t` of the routed layer of the argument arrays. -/
theorem flushed_eq (c : Dev nD) (hids : IdsInRange m c) (t : Fin cfg0.N) :
    (dats m 0 c).flushed 4 t = ((cfg0.win 4).blk t).view.read (Elt Ideal) (routed (m ((c : Thread nD τ).loc main_arg0)) (m ((c : Thread nD τ).loc main_arg1)) (m ((c : Thread nD τ).loc main_arg2)) (ids (m ((c : Thread nD τ).loc main_arg3)) (m ((c : Thread nD τ).loc main_arg4)))) := by
  rw [Cert.KernelIdeal.Value.flushed4, out_eq, View.canon_unit_zero hz]
  obtain ⟨-, -, -, -, -, -, -, -, -, e9, e10⟩ := idx_facts t
  funext j
  obtain ⟨p, q, rfl⟩ : ∃ (p : Fin 1024) (q : Fin 256), j = ix2 p q := ⟨j 0, j 1, eq_ix2 j⟩
  obtain ⟨e0, he⟩ := hids (row t p)
  show block (iblk m c 0 t) (iblk m c 1 t) (iblk m c 2 t) (iblk m c 3 t) (ix2 p q)
    = routed (m ((c : Thread nD τ).loc main_arg0)) (m ((c : Thread nD τ).loc main_arg1)) (m ((c : Thread nD τ).loc main_arg2)) (ids (m ((c : Thread nD τ).loc main_arg3)) (m ((c : Thread nD τ).loc main_arg4))) (((cfg0.win 4).blk t).view.emb (ix2 p q))
  have ho : ((cfg0.win 4).blk t).view.emb (ix2 p q) = ix2 (row t p) q := funext fun a => Fin.ext (by
    match a with
    | ⟨0, _⟩ => show win0_4.index t (0 : Fin 2) * 1024 + 1 * p.val = t.val * 1024 + p.val; omega
    | ⟨1, _⟩ => show win0_4.index t (1 : Fin 2) * 256 + 1 * q.val = q.val; omega)
  rw [ho]
  refine (block_apply (iblk m c 0 t) (iblk m c 1 t) (iblk m c 2 t) (iblk m c 3 t) p q e0 ((blk_ids m c t p).trans he)).trans ?_
  show _ = Ideal.logistic (logit (m ((c : Thread nD τ).loc main_arg0)) (m ((c : Thread nD τ).loc main_arg1)) (m ((c : Thread nD τ).loc main_arg2)) (sel (ids (m ((c : Thread nD τ).loc main_arg3)) (m ((c : Thread nD τ).loc main_arg4)) (ix1 (row t p)))) (row t p) q)
  rw [he, sel_ofNat]
  unfold logit
  simp only [blk_x, blk_w, blk_b]

/-- Every row of the result is in some point's block: row r in block r / 1024. -/
theorem cover (i : S8192x256.Idx) : ∃ t : Fin cfg0.N, (cfg0.win 4).flush t = true ∧ i ∈ ((cfg0.win 4).blk t).view.set := by
  have h8 : cfg0.N = 8 := N_0
  have hi0 : (i 0).val < 8192 := (i 0).isLt
  have hi1 : (i 1).val < 256 := (i 1).isLt
  let t : Fin cfg0.N := ⟨(i 0).val / 1024, by omega⟩
  obtain ⟨-, -, -, -, -, -, -, -, -, e9, e10⟩ := idx_facts t
  have ht : t.val = (i 0).val / 1024 := rfl
  refine ⟨t, flush0_4 t, ?_⟩
  show i ∈ ((View.whole main_v10).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- THE ARRAY after the run is the routed layer of the argument arrays. -/
theorem final (c : Dev nD) (hids : IdsInRange m c) : (dats m 0 c).arrAt 4 cfg0.N = (routed (m ((c : Thread nD τ).loc main_arg0)) (m ((c : Thread nD τ).loc main_arg1)) (m ((c : Thread nD τ).loc main_arg2)) (ids (m ((c : Thread nD τ).loc main_arg3)) (m ((c : Thread nD τ).loc main_arg4)))) :=
  (dats m 0 c).arrAt_eq_of_cover 4 (routed (m ((c : Thread nD τ).loc main_arg0)) (m ((c : Thread nD τ).loc main_arg1)) (m ((c : Thread nD τ).loc main_arg2)) (ids (m ((c : Thread nD τ).loc main_arg3)) (m ((c : Thread nD τ).loc main_arg4)))) (fun t _ => flushed_eq m c hids t) cover

/-- The kernel's run, read: the result array at the routed layer of the arguments, the arguments unchanged. -/
theorem run (hids : ∀ c, IdsInRange m c) :
    θ_run defs (onTc (τ := τ) (main (F := Ideal))) ⟨m, fun _ => 0, ρ⟩ fun r => ∀ c : Dev nD,
      r.2.mem ((c : Thread nD τ).loc main_v10) = (routed (m ((c : Thread nD τ).loc main_arg0)) (m ((c : Thread nD τ).loc main_arg1)) (m ((c : Thread nD τ).loc main_arg2)) (ids (m ((c : Thread nD τ).loc main_arg3)) (m ((c : Thread nD τ).loc main_arg4))))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun r h c => ⟨(h c).1.trans (final m c (hids c)), (h c).2⟩)
    (Cert.KernelIdeal.Value.run_blocks m ρ)

end Cert.KernelIdeal.RoutedValue

end
-- ==== Proof.RefValue.lean ====
/-
  The reference's result array is the same routed layer.

  The reference computes every expert's logit for every row — a contraction of x against all of W, plus the biases — and
  then takes, for row r, the logits of expert id(r) with `take_along_axis`: a negative id is counted from the end, an id
  outside [0, 15] selects a fill value, and the gather clamps its start index. For an id that names one of the sixteen
  experts none of these does anything: the id is kept, the in-range test passes, the clamp is the identity, and the gather
  reads logits[r, id(r), ·]. The logistic function is spelt 1 / (1 + e^(-z)) here, which is what it is.
-/
import proofs.«427025_j19842748907578_1_alg».proof.Proof.RefRead
import proofs.«427025_j19842748907578_1_alg».proof.Proof.Spec
import proofs.«427025_j19842748907578_1_alg».proof.Proof.LibMaskedSelect
import Idealize.ShloMosaic.Lib.ValueIdx
import Idealize.ShloMosaic.Lib.Pipeline.Value

set_option maxRecDepth 16384

noncomputable section

namespace Cert.ReferenceIdeal.RoutedRef

open Cert.ReferenceIdeal Cert.ReferenceIdeal.Gen Cert.ReferenceIdeal.ReadP Idealize.ShloMosaic Idealize.ShloMosaic.TcCoe
open Idealize.ShloMosaic.ValueIdx Idealize.ShloMosaic.MaskedSelect Cert.Routed

/-! ## The gather of `take_along_axis`, coordinate by coordinate -/

/-- The batch axis: row r of the result reads row r of the operand. -/
theorem opIdx_0 (idx : IVec S8192x1x1 32) (r : Fin 8192) (o : Fin 256) :
    (gather_S8192x16x256_S8192x1x1_S8192x1x256_2_1_0_0_1_2_11256.operandIdx (ix3 r (0 : Fin 1) o) idx 0).val = r.val := by
  show gather_S8192x16x256_S8192x1x1_S8192x1x256_2_1_0_0_1_2_11256.start (ix3 r (0 : Fin 1) o) idx 0 + gather_S8192x16x256_S8192x1x1_S8192x1x256_2_1_0_0_1_2_11256.batchCoord (ix3 r (0 : Fin 1) o) 0
    + gather_S8192x16x256_S8192x1x1_S8192x1x256_2_1_0_0_1_2_11256.offCoord (ix3 r (0 : Fin 1) o) 0 = r.val
  have hs : gather_S8192x16x256_S8192x1x1_S8192x1x256_2_1_0_0_1_2_11256.start (ix3 r (0 : Fin 1) o) idx 0 = 0 := by
    unfold GatherDims.start
    rw [dif_neg (show ¬(0 : Fin S8192x16x256.rank) ∈ gather_S8192x16x256_S8192x1x1_S8192x1x256_2_1_0_0_1_2_11256.startIndexMap by decide)]
  have hb : gather_S8192x16x256_S8192x1x1_S8192x1x256_2_1_0_0_1_2_11256.batchCoord (ix3 r (0 : Fin 1) o) 0 = r.val := by
    unfold GatherDims.batchCoord
    rw [dif_pos (show (0 : Fin S8192x16x256.rank) ∈ gather_S8192x16x256_S8192x1x1_S8192x1x256_2_1_0_0_1_2_11256.operandBatchingDims by decide)]
    rfl
  have ho : gather_S8192x16x256_S8192x1x1_S8192x1x256_2_1_0_0_1_2_11256.offCoord (ix3 r (0 : Fin 1) o) 0 = 0 :=
    gather_S8192x16x256_S8192x1x1_S8192x1x256_2_1_0_0_1_2_11256.offCoord_eq_zero _ _ (by decide)
  rw [hs, hb, ho]
  omega

/-- The expert axis: the start index, here an id that names an expert, unchanged by the clamp. -/
theorem opIdx_1 (idx : IVec S8192x1x1 32) (r : Fin 8192) (o : Fin 256) (e0 : Fin 16)
    (h : idx (ix3 r (0 : Fin 1) (0 : Fin 1)) = BitVec.ofNat 32 e0.val) :
    (gather_S8192x16x256_S8192x1x1_S8192x1x256_2_1_0_0_1_2_11256.operandIdx (ix3 r (0 : Fin 1) o) idx 1).val = e0.val := by
  show gather_S8192x16x256_S8192x1x1_S8192x1x256_2_1_0_0_1_2_11256.start (ix3 r (0 : Fin 1) o) idx 1 + gather_S8192x16x256_S8192x1x1_S8192x1x256_2_1_0_0_1_2_11256.batchCoord (ix3 r (0 : Fin 1) o) 1
    + gather_S8192x16x256_S8192x1x1_S8192x1x256_2_1_0_0_1_2_11256.offCoord (ix3 r (0 : Fin 1) o) 1 = e0.val
  have hb : gather_S8192x16x256_S8192x1x1_S8192x1x256_2_1_0_0_1_2_11256.batchCoord (ix3 r (0 : Fin 1) o) 1 = 0 :=
    gather_S8192x16x256_S8192x1x1_S8192x1x256_2_1_0_0_1_2_11256.batchCoord_eq_zero _ _ (by decide)
  have ho : gather_S8192x16x256_S8192x1x1_S8192x1x256_2_1_0_0_1_2_11256.offCoord (ix3 r (0 : Fin 1) o) 1 = 0 :=
    gather_S8192x16x256_S8192x1x1_S8192x1x256_2_1_0_0_1_2_11256.offCoord_eq_zero _ _ (by decide)
  have hs : gather_S8192x16x256_S8192x1x1_S8192x1x256_2_1_0_0_1_2_11256.start (ix3 r (0 : Fin 1) o) idx 1 = e0.val := by
    unfold GatherDims.start
    rw [dif_pos (show (1 : Fin S8192x16x256.rank) ∈ gather_S8192x16x256_S8192x1x1_S8192x1x256_2_1_0_0_1_2_11256.startIndexMap by decide)]
    have hsi : gather_S8192x16x256_S8192x1x1_S8192x1x256_2_1_0_0_1_2_11256.siIdx (ix3 r (0 : Fin 1) o)
        ⟨List.idxOf (1 : Fin S8192x16x256.rank) gather_S8192x16x256_S8192x1x1_S8192x1x256_2_1_0_0_1_2_11256.startIndexMap, List.idxOf_lt_length_iff.2 (by decide)⟩
        = ix3 r (0 : Fin 1) (0 : Fin 1) := by
      funext b
      refine Fin.ext ?_
      match b with
      | ⟨0, _⟩ => rfl
      | ⟨1, _⟩ => rfl
      | ⟨2, _⟩ => rfl
    rw [hsi, h]
    exact clamp_inrange e0
  rw [hs, hb, ho]
  omega

/-- The offset axis: column o of the result reads column o of the operand. -/
theorem opIdx_2 (idx : IVec S8192x1x1 32) (r : Fin 8192) (o : Fin 256) :
    (gather_S8192x16x256_S8192x1x1_S8192x1x256_2_1_0_0_1_2_11256.operandIdx (ix3 r (0 : Fin 1) o) idx 2).val = o.val := by
  show gather_S8192x16x256_S8192x1x1_S8192x1x256_2_1_0_0_1_2_11256.start (ix3 r (0 : Fin 1) o) idx 2 + gather_S8192x16x256_S8192x1x1_S8192x1x256_2_1_0_0_1_2_11256.batchCoord (ix3 r (0 : Fin 1) o) 2
    + gather_S8192x16x256_S8192x1x1_S8192x1x256_2_1_0_0_1_2_11256.offCoord (ix3 r (0 : Fin 1) o) 2 = o.val
  have hs : gather_S8192x16x256_S8192x1x1_S8192x1x256_2_1_0_0_1_2_11256.start (ix3 r (0 : Fin 1) o) idx 2 = 0 := by
    unfold GatherDims.start
    rw [dif_neg (show ¬(2 : Fin S8192x16x256.rank) ∈ gather_S8192x16x256_S8192x1x1_S8192x1x256_2_1_0_0_1_2_11256.startIndexMap by decide)]
  have hb : gather_S8192x16x256_S8192x1x1_S8192x1x256_2_1_0_0_1_2_11256.batchCoord (ix3 r (0 : Fin 1) o) 2 = 0 :=
    gather_S8192x16x256_S8192x1x1_S8192x1x256_2_1_0_0_1_2_11256.batchCoord_eq_zero _ _ (by decide)
  have ho : gather_S8192x16x256_S8192x1x1_S8192x1x256_2_1_0_0_1_2_11256.offCoord (ix3 r (0 : Fin 1) o) 2 = o.val := by
    unfold GatherDims.offCoord
    rw [dif_pos (show (2 : Fin S8192x16x256.rank) ∈ gather_S8192x16x256_S8192x1x1_S8192x1x256_2_1_0_0_1_2_11256.sKept by decide)]
    rfl
  rw [hs, hb, ho]
  omega

/-- `take_along_axis` at row r with an id naming expert e₀ reads the operand at [r, e₀, ·]. -/
theorem take_row (X : S8192x16x256.Idx → EReal) (idx : IVec S8192x1x1 32) (r : Fin 8192) (o : Fin 256) (e0 : Fin 16)
    (h : idx (ix3 r (0 : Fin 1) (0 : Fin 1)) = BitVec.ofNat 32 e0.val) :
    Host.gather gather_S8192x16x256_S8192x1x1_S8192x1x256_2_1_0_0_1_2_11256 X idx (ix3 r (0 : Fin 1) o) = X (ix3 r e0 o) := by
  unfold Host.gather
  refine congrArg X (funext fun a => Fin.ext ?_)
  match a with
  | ⟨0, _⟩ => exact opIdx_0 idx r o
  | ⟨1, _⟩ => exact opIdx_1 idx r o e0 h
  | ⟨2, _⟩ => exact opIdx_2 idx r o

/-! ## The stages, read at a row whose id names an expert -/

variable (x0 : S8192x1024.Idx → EReal) (x1 : S16x256x1024.Idx → EReal) (x2 : S16x256.Idx → EReal)
  (x3 : IVec S8192 32) (x4 : IVec S1000 32)

/-- Every row's id names one of the sixteen experts. -/
def IdsInRange : Prop := ∀ r : Fin 8192, ∃ e0 : Fin 16, val_main_v6 (F := Ideal) x3 x4 (ix1 r) = BitVec.ofNat 32 e0.val

/-- Counting a negative id from the end does nothing to an id that names an expert. -/
theorem wrapped_id (r : Fin 8192) (e0 : Fin 16) (h : val_main_v6 (F := Ideal) x3 x4 (ix1 r) = BitVec.ofNat 32 e0.val) :
    val_main_call0_v4 (F := Ideal) x3 x4 (ix3 r (0 : Fin 1) (0 : Fin 1)) = BitVec.ofNat 32 e0.val := by
  have i11 : idx_main_v11 (ix3 r (0 : Fin 1) (0 : Fin 1)) = ix1 r := funext fun a => by
    match a with
    | ⟨0, _⟩ => rfl
  have hv : val_main_v11 (F := Ideal) x3 x4 (ix3 r (0 : Fin 1) (0 : Fin 1)) = BitVec.ofNat 32 e0.val := by
    rw [val_main_v11_apply, i11, h]
  rw [val_main_call0_v4_apply, val_main_call0_v1_apply, val_main_call0_v3_apply, hv, val_main_call0_v0_apply,
    val_main_call0_c_apply, val_main_call0_v2_apply, val_main_call0_c_0_apply]
  exact wrap_inrange e0

/-- The in-range test passes at every row. -/
theorem inrange_all (hids : IdsInRange x3 x4) (j : S8192x1.Idx) : val_main_call0_v11 (F := Ideal) x3 x4 j = 1#1 := by
  unfold val_main_call0_v11
  refine reduce_andi_of_all _ _ _ _ j rfl (fun i => ?_)
  obtain ⟨r, a, b, rfl⟩ : ∃ (r : Fin 8192) (a : Fin 1) (b : Fin 1), i = ix3 r a b := ⟨i 0, i 1, i 2, eq_ix3 i⟩
  obtain rfl : a = 0 := Subsingleton.elim _ _
  obtain rfl : b = 0 := Subsingleton.elim _ _
  obtain ⟨e0, he⟩ := hids r
  rw [val_main_call0_v10_apply, val_main_call0_v6_apply, val_main_call0_v9_apply, wrapped_id x3 x4 r e0 he,
    val_main_call0_v5_apply, val_main_call0_c_2_apply, val_main_call0_v8_apply, val_main_call0_v7_apply,
    val_main_call0_c_1_apply]
  exact test_inrange e0

/-- All the logits: the contraction of row r of x with row o of W[e], plus the bias. -/
theorem logits_apply (r : Fin 8192) (e : Fin 16) (o : Fin 256) :
    val_main_v10 (F := Ideal) x0 x1 x2 (ix3 r e o) = logit x0 x1 x2 e r o := by
  have il : ∀ k, lidx_main_v7 (ix3 r e o) k = ix2 r k := fun k => funext fun a => by
    match a with
    | ⟨0, _⟩ => rfl
    | ⟨1, _⟩ => rfl
  have ir : ∀ k, ridx_main_v7 (ix3 r e o) k = ix3 e o k := fun k => funext fun a => by
    match a with
    | ⟨0, _⟩ => rfl
    | ⟨1, _⟩ => rfl
    | ⟨2, _⟩ => rfl
  have ib : idx_main_v8 (idx_main_v9 (ix3 r e o)) = ix2 e o := funext fun a => by
    match a with
    | ⟨0, _⟩ => rfl
    | ⟨1, _⟩ => rfl
  rw [val_main_v10_apply, val_main_v7_apply, val_main_v9_apply, val_main_v8_apply, ib]
  simp only [il, ir]
  rfl

/-- THE REFERENCE'S RESULT is the routed layer of its arguments, the ids being the gather `c[num]`. -/
theorem result_eq (hids : IdsInRange x3 x4) :
    val_main_v19 (F := Ideal) x0 x1 x2 x3 x4 = routed x0 x1 x2 (val_main_v6 (F := Ideal) x3 x4) := by
  funext i
  obtain ⟨r, o, rfl⟩ : ∃ (r : Fin 8192) (o : Fin 256), i = ix2 r o := ⟨i 0, i 1, eq_ix2 i⟩
  obtain ⟨e0, he⟩ := hids r
  have i13 : idx_main_v13 (ix2 r o) = ix3 r (0 : Fin 1) o := funext fun a => Fin.ext (by
    match a with
    | ⟨0, _⟩ => show (r.val * 256 + o.val) / 256 = r.val; have := o.isLt; omega
    | ⟨1, _⟩ => rfl
    | ⟨2, _⟩ => show (r.val * 256 + o.val) % 256 = o.val; have := o.isLt; omega)
  have hsel : val_main_v12 (F := Ideal) x0 x1 x2 x3 x4 (ix3 r (0 : Fin 1) o) = logit x0 x1 x2 e0 r o := by
    rw [val_main_v12_apply, val_main_call0_v13_apply, inrange_all x3 x4 hids, select_one]
    unfold val_main_call0_v12
    rw [take_row _ _ r o e0 (wrapped_id x3 x4 r e0 he)]
    exact logits_apply x0 x1 x2 r e0 o
  rw [val_main_v19_apply, val_main_v17_apply, val_main_v15_apply, val_main_v14_apply, val_main_v13_apply, i13, hsel,
    val_main_v18_apply, val_main_cst_1_apply, val_main_v16_apply, val_main_cst_apply]
  show _ = Ideal.logistic (logit x0 x1 x2 (sel (val_main_v6 (F := Ideal) x3 x4 (ix1 r))) r o)
  rw [he, sel_ofNat]
  simp only [Ideal.hostDivf_def, Ideal.addf_def, Ideal.hostUnary_exp_def, Ideal.hostNegf_def, Ideal.negf_def,
    Ideal.ofBits_def, one_f32]
  rfl

end Cert.ReferenceIdeal.RoutedRef

end
-- ==== Proof.PreRange.lean ====
/-
  What the precondition says of the routing table.

  The precondition is the conjunction of the three finiteness tests with `all((c ≥ 0) & (c < 16))`. Read back: the last
  conjunct is 1, so the reduce by `and` over the table is 1, so at every position both comparisons are 1, so every entry
  of the table is a word below 16. (The finiteness conjuncts are not used: the selection law needs none.)
-/
import proofs.«427025_j19842748907578_1_alg».proof.Pre_finite_inputs
import proofs.«427025_j19842748907578_1_alg».proof.Proof.Gen.Pre_finite_inputs
import proofs.«427025_j19842748907578_1_alg».proof.Proof.LibMaskedSelect
import Idealize.ShloMosaic.Lib.ReduceAll
import Idealize.ShloMosaic.Lib.ValueIdx
import Idealize.ShloMosaic.PureOps.Ideal

noncomputable section

namespace Cert.Routed.Pre

open Idealize.ShloMosaic Idealize.ShloMosaic.MaskedSelect Cert.Pre_finite_inputs

/-- Under the precondition every entry of the routing table is below 16. -/
theorem table_lt (a0 : FVec Ideal S8192x1024 .f32) (a1 : FVec Ideal S16x256x1024 .f32) (a2 : FVec Ideal S16x256 .f32)
    (a3 : IVec S8192 32) (a4 : IVec S1000 32)
    (h : Cert.Pre_finite_inputs.fn (F := Ideal) a0 a1 a2 a3 a4 = fun _ => 1#1) (j : S1000.Idx) : (a4 j).toNat < 16 := by
  have h0 := congrFun h ValueIdx.ix0
  dsimp only [Cert.Pre_finite_inputs.fn, Cert.Pre_finite_inputs.fn_part1] at h0
  obtain ⟨-, hall⟩ := IntOp.andi_eq_one.1 h0
  haveI : Subsingleton S_.Idx := ⟨fun a b => funext fun d => d.elim0⟩
  have hj := Host.reduce_andi_all _ _ _ _ _ hall j
  obtain ⟨hge, hlt⟩ := IntOp.andi_eq_one.1 hj
  have hge' : IntOp.cmpi .sge (a4 j) 0#32 = 1#1 := hge
  have hlt' : IntOp.cmpi .slt (a4 j) (BitVec.ofNat 32 16) = 1#1 := hlt
  exact toNat_lt_of_sge_slt (a4 j) 16 (by norm_num) hge' hlt'

end Cert.Routed.Pre

end
-- ==== Proof.lean ====
/-
  A routed expert layer: each of 8192 rows is sent to one of sixteen experts, `out[r] = σ(x[r] · W[e(r)]ᵀ + b[e(r)])` with
  `e(r) = c[num[r]]`.

  The kernel computes all sixteen experts' logits for a block of 1024 rows and keeps the routed one by a sum of
  logit · [e(r) = e] over the experts; the reference computes all logits and selects with `take_along_axis`. Under the
  precondition — the float inputs finite and every entry of the routing table `c` a valid expert id, 0 ≤ c < 16 — the two
  agree on the extended reals: exactly one of the 0/1 weights is 1, and a · 0 = 0, a · 1 = a, 0 + a = a hold for every
  extended real, so the weighted sum is the selected logit; on the reference's side a valid id is left alone by the
  wrap-around of negative ids, passes the in-range test and is not moved by the gather's clamp. Both then apply the same
  logistic function. Without the range on `c` the claim fails: for an id outside [0, 16) the kernel's weights are all 0 and
  it returns σ(0), while the reference wraps a negative id or fills.

  Modules: Spec (the layer as one function, the selection law), LibMaskedSelect (general lemmas), KernelBody (the body's
  arithmetic read at an index), KernelValue (the blocks assembled into the result array), RefValue (the reference's stages),
  PreRange (the precondition read back); RefRun / RefRead are the reference's run and its stage-by-stage reading.
-/
import proofs.«427025_j19842748907578_1_alg».proof.Defs
import proofs.«427025_j19842748907578_1_alg».proof.Proof.Gen.Kernel
import proofs.«427025_j19842748907578_1_alg».proof.Proof.Gen.Kernel.Frame
import proofs.«427025_j19842748907578_1_alg».proof.Proof.Gen.KernelIdeal
import proofs.«427025_j19842748907578_1_alg».proof.Proof.Gen.KernelIdeal.Frame
import proofs.«427025_j19842748907578_1_alg».proof.Proof.Gen.KernelIdeal.Value
import proofs.«427025_j19842748907578_1_alg».proof.Proof.Gen.ReferenceIdeal
import proofs.«427025_j19842748907578_1_alg».proof.Proof.Gen.Pre_finite_inputs
import proofs.«427025_j19842748907578_1_alg».proof.Proof.RefRun
import proofs.«427025_j19842748907578_1_alg».proof.Proof.RefRead
import proofs.«427025_j19842748907578_1_alg».proof.Proof.KernelValue
import proofs.«427025_j19842748907578_1_alg».proof.Proof.RefValue
import proofs.«427025_j19842748907578_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.MaskedSelect

/-- Under the precondition every row's id — an entry of the routing table, whatever position `num` names — is one of
    the sixteen experts. -/
theorem ids_in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.RoutedValue.IdsInRange m c := fun r => by
  obtain ⟨j, hj⟩ := Cert.KernelIdeal.RoutedValue.ids_mem (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix1 r)
  obtain ⟨e0, he⟩ := eq_ofNat_of_toNat_lt _ 16 (Cert.Routed.Pre.table_lt _ _ _ _ _ (hpre c) j)
  exact ⟨e0, hj.trans he⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the routed layer of the (agreeing) arguments in their result arrays. -/
theorem algebraic : Cert.algebraic_KernelIdeal_ReferenceIdeal := by
  intro m ρ m' ρ' hpre hagree
  have hk : ∀ c, Cert.KernelIdeal.RoutedValue.IdsInRange m c := fun c => ids_in_range m hpre c
  refine ⟨_, Cert.KernelIdeal.RoutedValue.run m ρ hk, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v19_eq, (hagree c).1, (hagree c).2.1, (hagree c).2.2.1, (hagree c).2.2.2.1,
    (hagree c).2.2.2.2]
  exact Cert.ReferenceIdeal.RoutedRef.result_eq _ _ _ _ _ (hk c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
